-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 4294867296#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S5000x128 : Shape := ⟨2, ![5000, 128]⟩

abbrev nBuf : Space → Nat
  | .hbm => 94
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S1x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1, .i32⟩
  | .hbm, ⟨34, _⟩ => ⟨S_, .i32⟩
  | .hbm, ⟨35, _⟩ => ⟨S1600000x1, .i32⟩
  | .hbm, ⟨36, _⟩ => ⟨S1600000x1, .i1⟩
  | .hbm, ⟨37, _⟩ => ⟨S1x1, .i32⟩
  | .hbm, ⟨38, _⟩ => ⟨S1600000x1, .i32⟩
  | .hbm, ⟨39, _⟩ => ⟨S1600000x1, .i1⟩
  | .hbm, ⟨40, _⟩ => ⟨S1600000x1, .i1⟩
  | .hbm, ⟨41, _⟩ => ⟨S_, .i1⟩
  | .hbm, ⟨42, _⟩ => ⟨S1600000, .i1⟩
  | .hbm, ⟨43, _⟩ => ⟨S1600000x128, .f32⟩
  | .hbm, ⟨44, _⟩ => ⟨S1600000x128, .i1⟩
  | .hbm, ⟨45, _⟩ => ⟨S_, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1, .i32⟩
  | .hbm, ⟨69, _⟩ => ⟨S_, .i32⟩
  | .hbm, ⟨70, _⟩ => ⟨S1600000x1, .i32⟩
  | .hbm, ⟨71, _⟩ => ⟨S1600000x1, .i1⟩
  | .hbm, ⟨72, _⟩ => ⟨S1x1, .i32⟩
  | .hbm, ⟨73, _⟩ => ⟨S1600000x1, .i32⟩
  | .hbm, ⟨74, _⟩ => ⟨S1600000x1, .i1⟩
  | .hbm, ⟨75, _⟩ => ⟨S1600000x1, .i1⟩
  | .hbm, ⟨76, _⟩ => ⟨S_, .i1⟩
  | .hbm, ⟨77, _⟩ => ⟨S1600000, .i1⟩
  | .hbm, ⟨78, _⟩ => ⟨S1600000x128, .f32⟩
  | .hbm, ⟨79, _⟩ => ⟨S1600000x128, .i1⟩
  | .hbm, ⟨80, _⟩ => ⟨S_, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S1600000x128, .f32⟩
  | .hbm, ⟨85, _⟩ => ⟨S1600000x128, .f32⟩
  | .hbm, ⟨86, _⟩ => ⟨S_, .f32⟩
  | .hbm, ⟨87, _⟩ => ⟨S100000x128, .f32⟩
  | .hbm, ⟨88, _⟩ => ⟨S1600000x1, .i32⟩
  | .hbm, ⟨89, _⟩ => ⟨S100000x128, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v13 : Ref sig .tc := ⟨.hbm, 47, rfl⟩
abbrev main_call1_cst : Ref sig .tc := ⟨.hbm, 48, rfl⟩
abbrev main_call1_v0 : Ref sig .tc := ⟨.hbm, 49, rfl⟩
abbrev main_v14 : Ref sig .tc := ⟨.hbm, 50, rfl⟩
abbrev main_cst_3 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v23 : Ref sig .tc := ⟨.hbm, 82, rfl⟩
abbrev main_call3_cst : Ref sig .tc := ⟨.hbm, 83, rfl⟩
abbrev main_call3_v0 : Ref sig .tc := ⟨.hbm, 84, rfl⟩
abbrev main_v24 : Ref sig .tc := ⟨.hbm, 85, rfl⟩
abbrev main_cst_4 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S100000x128, .f32⟩
  | .hbm, ⟨82, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_cst : Ref sig .tc := ⟨.hbm, 58, rfl⟩
abbrev main_call2_v0 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute: two GraphSAGE layers over 100000 nodes with 128 features and
  1600000 directed edges (row 0 of the edge array: the source node of each edge, row 1: its destination).
  One layer sends node features `z` to `A z · Wl + bl + z · Wr`, where `A z` is, at each node, the mean over
  its incoming edges of the relu of the source rows of `z` (the sum over the edges landing on the node, divided
  by their number or by one if there are none). A relu sits between the layers.
  The two programs spell `A` differently — `aggTake` (the kernel's program: rows fetched with a fill for
  a start index outside the table, the sum multiplied by a reciprocal) and `aggIndex` (the reference: rows
  fetched by plain indexing, the sum divided) — and agree on it where every source index addresses a row.
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes by 128 features. -/
abbrev Nodes : Shape := ⟨2, ![100000, 128]⟩
/-- A weight matrix: 128 input features by 128 output features. -/
abbrev Wts : Shape := ⟨2, ![128, 128]⟩
/-- The edge array: a row of sources and a row of destinations. -/
abbrev EdgePair : Shape := ⟨2, ![2, 1600000]⟩
abbrev EdgeRow : Shape := ⟨2, ![1, 1600000]⟩
/-- One entry per edge. -/
abbrev Edges : Shape := ⟨1, ![1600000]⟩
abbrev EdgeCol : Shape := ⟨2, ![1600000, 1]⟩
/-- One message per edge: 128 features. -/
abbrev Msgs : Shape := ⟨2, ![1600000, 128]⟩
/-- One entry per node. -/
abbrev PerNode : Shape := ⟨1, ![100000]⟩
abbrev NodeCol : Shape := ⟨2, ![100000, 1]⟩
abbrev Sc : Shape := ⟨0, ![]⟩
abbrev One1 : Shape := ⟨1, ![1]⟩
abbrev One2 : Shape := ⟨2, ![1, 1]⟩

/-! ## The dense part -/

/-- The dense part of a layer at node `n`, output feature `f`:
    `Σₖ mean(n,k)·Wl(k,f) + bl(f) + Σₖ z(n,k)·Wr(k,f)`, associated as both programs associate it. -/
def linAt (mean z : Nodes.Idx → EReal) (Wl Wr : Wts.Idx → EReal) (bl : Fin 128 → EReal) (n : Fin 100000) (f : Fin 128) : EReal :=
  (∑ k : Fin 128, mean (ix2 n k) * Wl (ix2 k f)) + bl f + ∑ k : Fin 128, z (ix2 n k) * Wr (ix2 k f)

/-- The same as an array over the nodes. -/
def lin (mean z : Nodes.Idx → EReal) (Wl Wr : Wts.Idx → EReal) (bl : Fin 128 → EReal) : Nodes.Idx → EReal :=
  fun i => linAt mean z Wl Wr bl (i 0) (i 1)

theorem lin_ix2 (mean z : Nodes.Idx → EReal) (Wl Wr : Wts.Idx → EReal) (bl : Fin 128 → EReal) (n : Fin 100000) (f : Fin 128) :
    lin mean z Wl Wr bl (ix2 n f) = linAt mean z Wl Wr bl n f := rfl

/-- The first layer's output: the dense part followed by a relu. -/
def hidden (A : (Nodes.Idx → EReal) → Nodes.Idx → EReal) (x : Nodes.Idx → EReal) (Wl Wr : Wts.Idx → EReal) (bl : Fin 128 → EReal) :
    Nodes.Idx → EReal :=
  fun i => max (lin (A x) x Wl Wr bl i) 0

/-- Both layers: the second layer's dense part of the first layer's output, aggregated again. -/
def twoLayer (A : (Nodes.Idx → EReal) → Nodes.Idx → EReal) (x : Nodes.Idx → EReal) (Wl1 Wr1 Wl2 Wr2 : Wts.Idx → EReal)
    (bl1 bl2 : Fin 128 → EReal) : Nodes.Idx → EReal :=
  lin (A (hidden A x Wl1 Wr1 bl1)) (hidden A x Wl1 Wr1 bl1) Wl2 Wr2 bl2

/-- The whole result depends on the aggregation only through its values. -/
theorem twoLayer_congr {A B : (Nodes.Idx → EReal) → Nodes.Idx → EReal} (h : ∀ z, A z = B z) (x : Nodes.Idx → EReal)
    (Wl1 Wr1 Wl2 Wr2 : Wts.Idx → EReal) (bl1 bl2 : Fin 128 → EReal) :
    twoLayer A x Wl1 Wr1 Wl2 Wr2 bl1 bl2 = twoLayer B x Wl1 Wr1 Wl2 Wr2 bl1 bl2 := by
  have : A = B := funext h
  rw [this]

/-! ## The aggregation, as the two programs spell it -/

variable {F : FTy → Type} [FloatOps F]

/-- Row gather: one row of the node table per start index. -/
def gatherRows : GatherDims Nodes EdgeCol Msgs where
  offsetDims := [1]
  collapsedSliceDims := [0]
  operandBatchingDims := []
  startIndicesBatchingDims := []
  startIndexMap := [0]
  indexVectorDim := 1
  sliceSizes := ![1, 128]
/-- Row scatter: each message row is added to the node row its index names. -/
def scatterRows : ScatterDims Nodes EdgeCol Msgs where
  updateWindowDims := [1]
  insertedWindowDims := [0]
  scatterDimsToOperandDims := [0]
  indexVectorDim := 1
/-- Entry scatter: each edge's entry is added to the node entry its index names. -/
def scatterOnes : ScatterDims PerNode EdgeCol Edges where
  updateWindowDims := []
  insertedWindowDims := [0]
  scatterDimsToOperandDims := [0]
  indexVectorDim := 1

/-- The edges' source indices as given. -/
def src (ei : IVec EdgePair 32) : IVec Edges 32 := shapeCast Edges (extractStridedSlice EdgeRow ![0, 0] ei (by decide)) (by decide)
/-- The edges' destination indices. -/
def dst (ei : IVec EdgePair 32) : IVec Edges 32 := shapeCast Edges (extractStridedSlice EdgeRow ![1, 0] ei (by decide)) (by decide)
/-- The source indices with a negative one counted from the end of the table. -/
def wrapped (ei : IVec EdgePair 32) : IVec Edges 32 :=
  select (cmpi .slt (src ei) (broadcastInDim Edges ![] (by decide) (constantI Sc 32 0#32)))
    (addi (src ei) (broadcastInDim Edges ![] (by decide) (constantI Sc 32 100000#32))) (src ei)
/-- The start indices of the row gather, one column. -/
def startCol (ei : IVec EdgePair 32) : IVec EdgeCol 32 := broadcastInDim EdgeCol ![0] (by decide) (wrapped ei)
/-- The destination indices, one column. -/
def dstCol (ei : IVec EdgePair 32) : IVec EdgeCol 32 := broadcastInDim EdgeCol ![0] (by decide) (dst ei)

/-- The number of edges landing on each node, or one where there are none. -/
def degree (ei : IVec EdgePair 32) : FVec F PerNode .f32 :=
  maximumf (Host.scatterAdd scatterOnes (broadcastInDim PerNode ![] (by decide) (constant Sc .f32 0x00000000#32)) (dstCol ei)
      (broadcastInDim Edges ![] (by decide) (constant Sc .f32 0x3F800000#32)))
    (broadcastInDim PerNode ![] (by decide) (constant Sc .f32 0x3F800000#32))
/-- A per-node value repeated along the features. -/
def alongFeatures (v : FVec F PerNode .f32) : FVec F Nodes .f32 :=
  broadcastInDim Nodes ![0, 1] (by decide) (broadcastInDim NodeCol ![0] (by decide) v)
/-- The messages summed into their destination nodes. -/
def summed (msg : FVec F Msgs .f32) (ei : IVec EdgePair 32) : FVec F Nodes .f32 :=
  Host.scatterAdd scatterRows (broadcastInDim Nodes ![] (by decide) (constant Sc .f32 0x00000000#32)) (dstCol ei) msg
/-- The relu of the messages. -/
def reluMsgs (v : FVec F Msgs .f32) : FVec F Msgs .f32 :=
  maximumf v (broadcastInDim Msgs ![] (by decide) (constant Sc .f32 0x00000000#32))

/-- The reference's aggregation: rows by plain indexing, the sum divided by the degree. -/
def aggIndex (z : FVec F Nodes .f32) (ei : IVec EdgePair 32) : FVec F Nodes .f32 :=
  Host.divf (summed (reluMsgs (Host.gather gatherRows z (startCol ei))) ei) (alongFeatures (degree ei))

/-- Per edge: is the start index a row of the table? -/
def inTable (ei : IVec EdgePair 32) : IVec Edges 1 :=
  Host.reduce (axes := [1]) IntOp.andi
    (andi (cmpi .sge (startCol ei) (broadcastInDim EdgeCol ![] (by decide) (constantI Sc 32 0#32)))
      (cmpi .sle (startCol ei) (broadcastInDim EdgeCol ![0, 1] (by decide) (broadcastInDim One2 ![1] (by decide) (constantI One1 32 99999#32)))))
    (constantI Sc 1 1#1) (by decide) (by decide)
/-- The rows fetched with a fill (the pattern of a quiet NaN) where the start index is outside the table. -/
def takeRows (z : FVec F Nodes .f32) (ei : IVec EdgePair 32) : FVec F Msgs .f32 :=
  select (broadcastInDim Msgs ![0] (by decide) (inTable ei)) (Host.gather gatherRows z (startCol ei))
    (broadcastInDim Msgs ![] (by decide) (constant Sc .f32 0x7FC00000#32))
/-- The reciprocal of the degree. -/
def invDegree (ei : IVec EdgePair 32) : FVec F PerNode .f32 :=
  Host.divf (broadcastInDim PerNode ![] (by decide) (constant Sc .f32 0x3F800000#32)) (degree ei)
/-- The kernel program's aggregation: rows fetched with the fill, the sum multiplied by the reciprocal degree. -/
def aggTake (z : FVec F Nodes .f32) (ei : IVec EdgePair 32) : FVec F Nodes .f32 :=
  mulf (summed (reluMsgs (takeRows z ei)) ei) (alongFeatures (invDegree ei))

end Cert.Sage

end
-- ==== Proof.Agg.lean ====
/-
  Where every source index addresses a row of the node table (−100000 ≤ index < 100000, a negative one counting
  from the end), the two spellings of the aggregation agree: the wrapped index lies in 0 … 99999, so the fill of
  the fetch with a fill is never taken; and multiplying a sum by the reciprocal of a degree ≥ 1 is dividing by it.
  Also here: the aggregation over given source and destination vectors, of which both spellings are instances.
-/
import proofs.«420767_j66314295050609_1_alg».proof.Proof.Spec
import Idealize.ShloMosaic.PureOps.Reduce
import Idealize.ShloMosaic.PureOps.Ideal.Laws
import Idealize.ShloMosaic.Lib.IdealHost
import Idealize.ShloMosaic.Lib.Affine
import Idealize.ShloMosaic.Lib.StableHlo.Predicate

noncomputable section

namespace Cert.Sage

open Idealize.ShloMosaic Idealize.ShloMosaic.ValueIdx

/-! ## Words -/

/-- A source index in −100000 … 99999, wrapped (100000 added to a negative one), lies in 0 … 99999. -/
theorem wrap_in_table (s : BitVec 32) (h1 : IntOp.cmpi .sge s 4294867296#32 = 1#1) (h2 : IntOp.cmpi .slt s 100000#32 = 1#1) :
    IntOp.cmpi .sge (Scalar.select (IntOp.cmpi .slt s 0#32) (IntOp.addi s 100000#32) s) 0#32 = 1#1
    ∧ IntOp.cmpi .sle (Scalar.select (IntOp.cmpi .slt s 0#32) (IntOp.addi s 100000#32) s) 99999#32 = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  have hadd : (s + 100000#32).toInt = (s.toInt + 100000).bmod (2 ^ 32) := by rw [BitVec.toInt_add, e2]
  have hc : (BitVec.ofBool (decide (s.toInt < 0)) = 1) ↔ s.toInt < 0 := by
    by_cases h : s.toInt < 0 <;> simp [h]
  simp only [IntOp.cmpi, IntOp.addi, Scalar.select, StableHlo.Predicate.ofBool_eq_one_iff, BitVec.slt, BitVec.sle,
    decide_eq_true_eq, e1, e2, e3, e4] at h1 h2 ⊢
  by_cases hs : s.toInt < 0
  · rw [if_pos (hc.2 hs), hadd, Int.bmod_def]; split <;> omega
  · rw [if_neg (fun h => hs (hc.1 h))]; omega

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_ones f l fun n hn => h n (List.mem_cons_of_mem _ hn)

/-- A reduction by `and` from the constant 1 of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-! ## Extended reals -/

/-- Multiplying by the reciprocal of a number that is at least one is dividing by it. -/
theorem mul_recip_eq_div (x c : EReal) (hc : 1 ≤ c) : x * Ideal.div 1 c = Ideal.div x c := by
  have hc0 : c ≠ 0 := fun h => by rw [h] at hc; exact absurd hc (by norm_num)
  unfold Ideal.div
  rw [if_neg hc0, if_neg hc0, one_mul]

/-! ## The aggregation over given source and destination indices -/

variable {F : FTy → Type} [FloatOps F]

def wrappedOf (s : IVec Edges 32) : IVec Edges 32 :=
  select (cmpi .slt s (broadcastInDim Edges ![] (by decide) (constantI Sc 32 0#32)))
    (addi s (broadcastInDim Edges ![] (by decide) (constantI Sc 32 100000#32))) s
def startColOf (s : IVec Edges 32) : IVec EdgeCol 32 := broadcastInDim EdgeCol ![0] (by decide) (wrappedOf s)
def inTableOf (s : IVec Edges 32) : IVec Edges 1 :=
  Host.reduce (axes := [1]) IntOp.andi
    (andi (cmpi .sge (startColOf s) (broadcastInDim EdgeCol ![] (by decide) (constantI Sc 32 0#32)))
      (cmpi .sle (startColOf s) (broadcastInDim EdgeCol ![0, 1] (by decide) (broadcastInDim One2 ![1] (by decide) (constantI One1 32 99999#32)))))
    (constantI Sc 1 1#1) (by decide) (by decide)
def takeRowsOf (z : FVec F Nodes .f32) (s : IVec Edges 32) : FVec F Msgs .f32 :=
  select (broadcastInDim Msgs ![0] (by decide) (inTableOf s)) (Host.gather gatherRows z (startColOf s))
    (broadcastInDim Msgs ![] (by decide) (constant Sc .f32 0x7FC00000#32))
def summedOf (msg : FVec F Msgs .f32) (d : IVec Edges 32) : FVec F Nodes .f32 :=
  Host.scatterAdd scatterRows (broadcastInDim Nodes ![] (by decide) (constant Sc .f32 0x00000000#32))
    (broadcastInDim EdgeCol ![0] (by decide) d) msg
/-- The kernel program's aggregation over a source vector, a destination vector and a reciprocal degree. -/
def aggTakeOf (z : FVec F Nodes .f32) (s d : IVec Edges 32) (inv : FVec F PerNode .f32) : FVec F Nodes .f32 :=
  mulf (summedOf (reluMsgs (takeRowsOf z s)) d) (alongFeatures inv)

theorem aggTake_eq_of (z : FVec F Nodes .f32) (ei : IVec EdgePair 32) :
    aggTake z ei = aggTakeOf z (src ei) (dst ei) (invDegree ei) := rfl

/-! ## The two spellings agree -/

/-- Every source index addresses a row. -/
def SrcInTable (ei : IVec EdgePair 32) : Prop :=
  ∀ e : Edges.Idx, IntOp.cmpi .sge (src ei e) 4294867296#32 = 1#1 ∧ IntOp.cmpi .slt (src ei e) 100000#32 = 1#1

theorem inTable_ones (ei : IVec EdgePair 32) (hr : SrcInTable ei) (e : Edges.Idx) : inTable ei e = 1#1 := by
  unfold inTable
  refine reduce_andi_ones _ _ _ _ (fun y => ?_) (fun _ => rfl) e
  obtain ⟨h1, h2⟩ := hr (fun a => if h1 : Edges.size a = 1 then ⟨0, by omega⟩ else ⟨(y ((![0] : Fin 1 → Fin 2) a)).val, by
      have := (y ((![0] : Fin 1 → Fin 2) a)).isLt; revert this; fin_cases a; exact id⟩)
  obtain ⟨g1, g2⟩ := wrap_in_table _ h1 h2
  exact IntOp.andi_eq_one.2 ⟨g1, g2⟩

theorem takeRows_eq (z : FVec Ideal Nodes .f32) (ei : IVec EdgePair 32) (hr : SrcInTable ei) :
    takeRows z ei = Host.gather gatherRows z (startCol ei) := by
  funext i
  unfold takeRows
  rw [select_apply]
  have : broadcastInDim Msgs ![0] (by decide) (inTable ei) i = 1#1 := inTable_ones ei hr _
  rw [this]; rfl

/-- A sum multiplied, node by node, by the reciprocal of a per-node number that is at least one is the sum divided by it. -/
theorem mulf_recip_eq_divf (S : FVec Ideal Nodes .f32) (v : FVec Ideal PerNode .f32) (hv : ∀ n, 1 ≤ v n) :
    mulf S (alongFeatures (Host.divf (broadcastInDim PerNode ![] (by decide) (constant Sc .f32 0x3F800000#32)) v))
      = Host.divf S (alongFeatures v) := by
  funext i
  rw [mulf_apply]
  unfold alongFeatures broadcastInDim Host.divf
  simp only [Ideal.hostDivf_def, constant, Ideal.ofBits_def, Ideal.ofBits_one_f32]
  exact mul_recip_eq_div _ _ (hv _)

theorem one_le_degree (ei : IVec EdgePair 32) (n : PerNode.Idx) : 1 ≤ degree (F := Ideal) ei n := by
  unfold degree
  rw [maximumf_apply]
  refine le_trans (le_of_eq ?_) (le_max_right _ _)
  unfold broadcastInDim constant
  simp only [Ideal.ofBits_def, Ideal.ofBits_one_f32]

/-- Where every source index addresses a row the two spellings of the aggregation are one array. -/
theorem aggTake_eq_aggIndex (z : FVec Ideal Nodes .f32) (ei : IVec EdgePair 32) (hr : SrcInTable ei) :
    aggTake z ei = aggIndex z ei := by
  unfold aggTake aggIndex invDegree
  rw [takeRows_eq z ei hr]
  exact mulf_recip_eq_divf _ _ (one_le_degree ei)

end Cert.Sage

end
-- ==== Proof.PreRange.lean ====
/-
  The precondition's last conjunct, read back: every source index of the edge array lies in −100000 … 99999,
  that is, addresses a row of the node table (a negative one counting from the end).
-/
import proofs.«420767_j66314295050609_1_alg».proof.Defs
import proofs.«420767_j66314295050609_1_alg».proof.Proof.Agg
import Idealize.ShloMosaic.Lib.ReduceAll
import Idealize.ShloMosaic.Lib.Affine

noncomputable section

namespace Cert.PreRange

open Idealize.ShloMosaic Idealize.ShloMosaic.ValueIdx

instance : Subsingleton Cert.Pre_finite_inputs.S_.Idx := ⟨fun a b => funext fun d => d.elim0⟩

/-- Where the printed precondition is all ones, every source index addresses a row. -/
theorem srcInTable_of_pre [Cert.Pre_finite_inputs.Facts] (a0 : FVec Ideal Cert.Pre_finite_inputs.S100000x128 .f32)
    (a1 : IVec Cert.Pre_finite_inputs.S2x1600000 32) (a2 : FVec Ideal Cert.Pre_finite_inputs.S128x128 .f32)
    (a3 : FVec Ideal Cert.Pre_finite_inputs.S128 .f32) (a4 a5 : FVec Ideal Cert.Pre_finite_inputs.S128x128 .f32)
    (a6 : FVec Ideal Cert.Pre_finite_inputs.S128 .f32) (a7 : FVec Ideal Cert.Pre_finite_inputs.S128x128 .f32)
    (h : Cert.Pre_finite_inputs.fn (F := Ideal) a0 a1 a2 a3 a4 a5 a6 a7 = fun _ => 1#1) : Cert.Sage.SrcInTable a1 := by
  have h0 := congrFun h ix0
  dsimp only [Cert.Pre_finite_inputs.fn, Cert.Pre_finite_inputs.fn_part1, Cert.Pre_finite_inputs.fn_part2] at h0
  have h1 := (IntOp.andi_eq_one.1 h0).2
  intro e
  have h2 := Host.reduce_andi_all _ _ _ _ _ h1 e
  exact IntOp.andi_eq_one.1 h2

end Cert.PreRange

end
-- ==== Proof.KTake.lean ====
/-
  The two row fetches of the kernel's program, each a stretch of twenty-three host operations: wrap a negative source
  index, test the wrapped index against the table's range, gather the rows, and fill where the test fails. Read in three
  cuts (eight operations up to the start-index column, ten for the range test, five for the gather and the fill), each stretch is the fetch
  with a fill of Spec, over whatever the buffers held before it.
-/
import proofs.«420767_j66314295050609_1_alg».proof.Proof.Gen.KernelIdeal.Frame
import proofs.«420767_j66314295050609_1_alg».proof.Proof.Agg
import Idealize.ShloMosaic.Lib.StableHlo.Run

noncomputable section

namespace Cert.KernelIdeal.KTake

open Cert.KernelIdeal Cert.KernelIdeal.Gen Idealize.ShloMosaic Idealize.ShloMosaic.TcCoe Idealize.SL.Sem Idealize.ShloMosaic.StableHlo Cert.Sage

variable {F : FTy → Type} [FloatOps F]

-- a reduction over the edges is compared operand by operand, never opened
attribute [local irreducible] Host.reduce

/-- Per edge: is the start index, given as a column, a row of the table? -/
def rangeTest (col : IVec EdgeCol 32) : IVec Edges 1 :=
  Host.reduce (axes := [1]) IntOp.andi
    (andi (cmpi .sge col (broadcastInDim EdgeCol ![] (by decide) (constantI Sc 32 0#32)))
      (cmpi .sle col (broadcastInDim EdgeCol ![0, 1] (by decide) (broadcastInDim One2 ![1] (by decide) (constantI One1 32 99999#32)))))
    (constantI Sc 1 1#1) (by decide) (by decide)

theorem inTableOf_eq (s : IVec Edges 32) : inTableOf s = rangeTest (startColOf s) := rfl

/-! ## The fetch of layer 1 -/

/-- The first cut: the source indices wrapped and laid out as the column of start indices (eight operations). -/
abbrev wrap1 : List (HloOp τ sig (Elt F)) := (hostOps0_1 (F := F)).take 8
/-- The second cut: the range test (ten operations). -/
abbrev test1 : List (HloOp τ sig (Elt F)) := ((hostOps0_1 (F := F)).drop 8).take 10
/-- The third cut: the gather and the fill (five operations). -/
abbrev fill1 : List (HloOp τ sig (Elt F)) := ((hostOps0_1 (F := F)).drop 8).drop 10

theorem split1 : (hostOps0_1 : List (HloOp τ sig (Elt F))) = wrap1 ++ (test1 ++ fill1) := by
  rw [List.take_append_drop, List.take_append_drop]

set_option maxHeartbeats 400000 in
/-- After the first cut the start-index column holds the wrapped source indices. -/
theorem wrap1_start (V : Valuation τ sig (Elt F)) : StableHlo.after wrap1 V (Proc.devRef .tc main_call0_v5)
    = startColOf (V (Proc.devRef .tc main_v1)) := by
  simp only [wrap1, hostOps0_1, List.take_succ_cons, List.take_zero]
  after_results_simp
  rfl

set_option maxHeartbeats 400000 in
/-- The first cut leaves the table as it was. -/
theorem wrap1_table (V : Valuation τ sig (Elt F)) : StableHlo.after wrap1 V (Proc.devRef .tc main_arg0)
    = V (Proc.devRef .tc main_arg0) := by
  simp only [wrap1, hostOps0_1, List.take_succ_cons, List.take_zero]
  after_results_simp

set_option maxHeartbeats 400000 in
/-- After the second cut the test's buffer holds, per edge, whether the start index is a row of the table. -/
theorem test1_eval (V : Valuation τ sig (Elt F)) : StableHlo.after test1 V (Proc.devRef .tc main_call0_v12)
    = rangeTest (V (Proc.devRef .tc main_call0_v5)) := by
  simp only [test1, hostOps0_1, List.drop_succ_cons, List.drop_zero, List.take_succ_cons, List.take_zero]
  after_results_simp
  rfl

set_option maxHeartbeats 400000 in
/-- The second cut leaves the start indices as they were … -/
theorem test1_start (V : Valuation τ sig (Elt F)) : StableHlo.after test1 V (Proc.devRef .tc main_call0_v5)
    = V (Proc.devRef .tc main_call0_v5) := by
  simp only [test1, hostOps0_1, List.drop_succ_cons, List.drop_zero, List.take_succ_cons, List.take_zero]
  after_results_simp

set_option maxHeartbeats 400000 in
/-- … and the table. -/
theorem test1_table (V : Valuation τ sig (Elt F)) : StableHlo.after test1 V (Proc.devRef .tc main_arg0)
    = V (Proc.devRef .tc main_arg0) := by
  simp only [test1, hostOps0_1, List.drop_succ_cons, List.drop_zero, List.take_succ_cons, List.take_zero]
  after_results_simp

set_option maxHeartbeats 400000 in
/-- The third cut: the gathered rows where the test holds, the fill elsewhere. -/
theorem fill1_eval (V : Valuation τ sig (Elt F)) : StableHlo.after fill1 V (Proc.devRef .tc main_v13)
    = select (broadcastInDim Msgs ![0] (by decide) (V (Proc.devRef .tc main_call0_v12)))
        (Host.gather gatherRows (V (Proc.devRef .tc main_arg0)) (V (Proc.devRef .tc main_call0_v5)))
        (broadcastInDim Msgs ![] (by decide) (constant Sc .f32 0x7FC00000#32)) := by
  simp only [fill1, hostOps0_1, List.drop_succ_cons, List.drop_zero]
  after_results_simp
  rfl

/-- The whole stretch is the fetch with a fill, of the table and the source indices as they stood before it. -/
theorem fetch1 (V : Valuation τ sig (Elt F)) : StableHlo.after hostOps0_1 V (Proc.devRef .tc main_v13)
    = takeRowsOf (V (Proc.devRef .tc main_arg0)) (V (Proc.devRef .tc main_v1)) := by
  rw [split1, StableHlo.after_append, StableHlo.after_append, fill1_eval, test1_eval, test1_start, test1_table,
    wrap1_start, wrap1_table]
  rfl

/-! ## The fetch of layer 2 -/

/-- The first cut: the source indices wrapped and laid out as the column of start indices (eight operations). -/
abbrev wrap2 : List (HloOp τ sig (Elt F)) := (hostOps1_1 (F := F)).take 8
/-- The second cut: the range test (ten operations). -/
abbrev test2 : List (HloOp τ sig (Elt F)) := ((hostOps1_1 (F := F)).drop 8).take 10
/-- The third cut: the gather and the fill (five operations). -/
abbrev fill2 : List (HloOp τ sig (Elt F)) := ((hostOps1_1 (F := F)).drop 8).drop 10

theorem split2 : (hostOps1_1 : List (HloOp τ sig (Elt F))) = wrap2 ++ (test2 ++ fill2) := by
  rw [List.take_append_drop, List.take_append_drop]

set_option maxHeartbeats 400000 in
/-- After the first cut the start-index column holds the wrapped source indices. -/
theorem wrap2_start (V : Valuation τ sig (Elt F)) : StableHlo.after wrap2 V (Proc.devRef .tc main_call2_v5)
    = startColOf (V (Proc.devRef .tc main_v1)) := by
  simp only [wrap2, hostOps1_1, List.take_succ_cons, List.take_zero]
  after_results_simp
  rfl

set_option maxHeartbeats 400000 in
/-- The first cut leaves the table as it was. -/
theorem wrap2_table (V : Valuation τ sig (Elt F)) : StableHlo.after wrap2 V (Proc.devRef .tc main_v21)
    = V (Proc.devRef .tc main_v21) := by
  simp only [wrap2, hostOps1_1, List.take_succ_cons, List.take_zero]
  after_results_simp

set_option maxHeartbeats 400000 in
/-- After the second cut the test's buffer holds, per edge, whether the start index is a row of the table. -/
theorem test2_eval (V : Valuation τ sig (Elt F)) : StableHlo.after test2 V (Proc.devRef .tc main_call2_v12)
    = rangeTest (V (Proc.devRef .tc main_call2_v5)) := by
  simp only [test2, hostOps1_1, List.drop_succ_cons, List.drop_zero, List.take_succ_cons, List.take_zero]
  after_results_simp
  rfl

set_option maxHeartbeats 400000 in
/-- The second cut leaves the start indices as they were … -/
theorem test2_start (V : Valuation τ sig (Elt F)) : StableHlo.after test2 V (Proc.devRef .tc main_call2_v5)
    = V (Proc.devRef .tc main_call2_v5) := by
  simp only [test2, hostOps1_1, List.drop_succ_cons, List.drop_zero, List.take_succ_cons, List.take_zero]
  after_results_simp

set_option maxHeartbeats 400000 in
/-- … and the table. -/
theorem test2_table (V : Valuation τ sig (Elt F)) : StableHlo.after test2 V (Proc.devRef .tc main_v21)
    = V (Proc.devRef .tc main_v21) := by
  simp only [test2, hostOps1_1, List.drop_succ_cons, List.drop_zero, List.take_succ_cons, List.take_zero]
  after_results_simp

set_option maxHeartbeats 400000 in
/-- The third cut: the gathered rows where the test holds, the fill elsewhere. -/
theorem fill2_eval (V : Valuation τ sig (Elt F)) : StableHlo.after fill2 V (Proc.devRef .tc main_v23)
    = select (broadcastInDim Msgs ![0] (by decide) (V (Proc.devRef .tc main_call2_v12)))
        (Host.gather gatherRows (V (Proc.devRef .tc main_v21)) (V (Proc.devRef .tc main_call2_v5)))
        (broadcastInDim Msgs ![] (by decide) (constant Sc .f32 0x7FC00000#32)) := by
  simp only [fill2, hostOps1_1, List.drop_succ_cons, List.drop_zero]
  after_results_simp
  rfl

/-- The whole stretch is the fetch with a fill, of the table and the source indices as they stood before it. -/
theorem fetch2 (V : Valuation τ sig (Elt F)) : StableHlo.after hostOps1_1 V (Proc.devRef .tc main_v23)
    = takeRowsOf (V (Proc.devRef .tc main_v21)) (V (Proc.devRef .tc main_v1)) := by
  rw [split2, StableHlo.after_append, StableHlo.after_append, fill2_eval, test2_eval, test2_start, test2_table,
    wrap2_start, wrap2_table]
  rfl

end Cert.KernelIdeal.KTake

end
-- ==== Proof.Dense.lean ====
/-
  What each of the two kernel regions leaves in its output array: block by block the body computes, for the
  5000 node rows of its grid point, `mean · Wl + bl + z · Wr` (with a relu in the first region), and the twenty
  blocks tile the 100000 rows; so the array after the region is the dense part of the layer over all nodes.
-/
import proofs.«420767_j66314295050609_1_alg».proof.Proof.Gen.KernelIdeal.Frame
import proofs.«420767_j66314295050609_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen Idealize.ShloMosaic Idealize.ShloMosaic.TcCoe Idealize.SL.Sem Idealize.ShloMosaic.ValueIdx

/-! ## The matrix product of a row block with a weight matrix, at an index

The product contracts the block's second axis with the matrix's first; its operand indices at output index
`(p, q)` and contraction index `k` are `(p, k)` and `(k, q)`. -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at `(p, q)`: the sum over the 128 inner features. -/
theorem matmul_ix2 {φ₁ φ₂ : FTy} (x : FVec Ideal S5000x128 φ₁) (w : FVec Ideal S128x128 φ₂) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-! ## The body's stored value at an index -/

/-- The first region's body at `(p, q)`: both products, the bias row between them, then the relu. -/
theorem pay0_ix2 (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max ((∑ k : Fin 128, x0 (ix2 p k) * x2 (ix2 k q)) + x3 (ix2 (0 : Fin 1) q) + ∑ k : Fin 128, x1 (ix2 p k) * x4 (ix2 k q)) 0 := by
  unfold k0_pay1
  simp only [shapeCast_self]
  rw [maximumf_apply, addf_apply, addf_apply, matmul_ix2, matmul_ix2, broadcastTo_1b_ab_apply, broadcast_apply]
  simp only [truncf_apply]
  show max _ (Ideal.ofBits .f32 0x00000000#32) = _
  rw [Ideal.ofBits_zero_f32]

/-- The second region's body at `(p, q)`: the same without the relu. -/
theorem pay1_ix2 (x0 x1 : Vec Ideal S5000x128 .f32) (x2 x4 : Vec Ideal S128x128 .f32) (x3 : Vec Ideal S1x128 .f32)
    (p : Fin 5000) (q : Fin 128) :
    k1_pay1 (F := Ideal) x0 x1 x2 x4 x3 (ix2 p q)
      = (∑ k : Fin 128, x0 (ix2 p k) * x2 (ix2 k q)) + x3 (ix2 (0 : Fin 1) q) + ∑ k : Fin 128, x1 (ix2 p k) * x4 (ix2 k q) := by
  unfold k1_pay1
  simp only [shapeCast_self]
  rw [addf_apply, addf_apply, matmul_ix2, matmul_ix2, broadcastTo_1b_ab_apply]
  simp only [truncf_apply]

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## The first region: from its twenty blocks to the array -/

/-- The block index of every window at every grid point: the node windows (the two inputs and the output) sit at
    block row `t`, the weights and the bias at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of grid point `t`'s block is node `5000 t + p`. -/
def node0 (t : Fin cfg0.N) (p : Fin 5000) : Fin 100000 :=
  ⟨5000 * t.val + p.val, by have hN : grid0.N = 20 := N_0; have ht : t.val < grid0.N := t.isLt; have := p.isLt; omega⟩

/-- The aggregated-features block at point `t`: rows `5000 t … 5000 t + 4999` of its array. -/
theorem blk0_0 (c : Dev nD) (t : Fin cfg0.N) (p : Fin 5000) (k : Fin 128) :
    (iblk0 V c 0 t : Vec Ideal S5000x128 .f32) (ix2 p k) = (V c main_v20 : S100000x128.Idx → EReal) (ix2 (node0 t p) k) := by
  obtain ⟨e0, e1, -⟩ := idx_facts0 t
  unfold iblk0
  rw [View.read_apply]
  show V c main_v20 _ = V c main_v20 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The node-features block at point `t`: the same rows of its array. -/
theorem blk0_1 (c : Dev nD) (t : Fin cfg0.N) (p : Fin 5000) (k : Fin 128) :
    (iblk0 V c 1 t : Vec Ideal S5000x128 .f32) (ix2 p k) = (V c main_arg0 : S100000x128.Idx → EReal) (ix2 (node0 t p) k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The first weight matrix's one block is the matrix. -/
theorem blk0_2 (c : Dev nD) (t : Fin cfg0.N) (k q : Fin 128) :
    (iblk0 V c 2 t : Vec Ideal S128x128 .f32) (ix2 k q) = (V c main_arg2 : S128x128.Idx → EReal) (ix2 k q) := by
  obtain ⟨-, -, -, -, e0, e1, -⟩ := idx_facts0 t
  unfold iblk0
  rw [View.read_apply]
  show V c main_arg2 _ = V c main_arg2 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The bias row's one block is the row. -/
theorem blk0_3 (c : Dev nD) (t : Fin cfg0.N) (q : Fin 128) :
    (iblk0 V c 3 t : Vec Ideal S1x128 .f32) (ix2 (0 : Fin 1) q) = (V c main_v12 : S1x128.Idx → EReal) (ix2 (0 : Fin 1) q) := by
  obtain ⟨-, -, -, -, -, -, e0, e1, -⟩ := idx_facts0 t
  unfold iblk0
  rw [View.read_apply]
  show V c main_v12 _ = V c main_v12 _
  congr 1
  funext a
  apply Fin.ext
  match a with
  | ⟨0, _⟩ => show win0_3.index t (0 : Fin 2) * 1 + 1 * (0 : Fin 1).val = (0 : Fin 1).val; rw [e0]; rfl
  | ⟨1, _⟩ => show win0_3.index t (1 : Fin 2) * 128 + 1 * q.val = q.val; rw [e1]; omega

/-- The second weight matrix's one block is the matrix. -/
theorem blk0_4 (c : Dev nD) (t : Fin cfg0.N) (k q : Fin 128) :
    (iblk0 V c 4 t : Vec Ideal S128x128 .f32) (ix2 k q) = (V c main_arg4 : S128x128.Idx → EReal) (ix2 k q) := by
  obtain ⟨-, -, -, -, -, -, -, -, e0, e1, -⟩ := idx_facts0 t
  unfold iblk0
  rw [View.read_apply]
  show V c main_arg4 _ = V c main_arg4 _
  congr 1
  funext a
  apply Fin.ext
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The output block's index `(p, q)` at point `t` is the array's index `(5000 t + p, q)`. -/
theorem emb0_5 (t : Fin cfg0.N) (p : Fin 5000) (q : Fin 128) :
    ((cfg0.win 5).blk t).view.emb (ix2 p q) = (ix2 (node0 t p) q : S100000x128.Idx) := by
  obtain ⟨-, -, -, -, -, -, -, -, -, -, e0, e1⟩ := idx_facts0 t
  funext a
  apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- What the region's output array ends holding: the dense part under the relu, of the arrays as the region finds them. -/
abbrev G0 (c : Dev nD) : S100000x128.Idx → EReal :=
  fun i => max (Cert.Sage.lin (V c main_v20) (V c main_arg0) (V c main_arg2) (V c main_arg4) (fun f => V c main_v12 (ix2 (0 : Fin 1) f)) i) 0

/-- What grid point `t` writes back is block `t` of that function. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply, emb0_5]
  show k0_pay1 (F := Ideal) _ _ _ _ _ (ix2 p q) = max (Cert.Sage.lin (V c main_v20) (V c main_arg0) (V c main_arg2) (V c main_arg4) (fun f => V c main_v12 (ix2 (0 : Fin 1) f)) (ix2 (node0 t p) q)) 0
  rw [Cert.Sage.lin_ix2, pay0_ix2]
  unfold Cert.Sage.linAt
  simp only [blk0_0 V c t, blk0_1 V c t, blk0_2 V c t, blk0_3 V c t, blk0_4 V c t]

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21).slice (win0_5.rect t)).set ↔ _
  rw [View.set_slice_whole, Rect.mem_set_unit]
  exact Iff.rfl

/-- Node `r` lies in the block of grid point `r / 5000`: the twenty blocks cover the array. -/
theorem cover0 (i : S100000x128.Idx) :
    ∃ t : Fin cfg0.N, (cfg0.win 5).flush t = true ∧ i ∈ ((cfg0.win 5).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; omega⟩
  obtain ⟨-, -, -, -, -, -, -, -, -, -, e0, e1⟩ := idx_facts0 t
  have ht : t.val = (i 0).val / 5000 := rfl
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- The first region's output array: the relu of the dense part, over all nodes. -/
theorem final0 (c : Dev nD) : (dat0 (F := Ideal) V c).arrAt 5 cfg0.N =
    fun i => max (Cert.Sage.lin (V c main_v20) (V c main_arg0) (V c main_arg2) (V c main_arg4) (fun f => V c main_v12 (ix2 (0 : Fin 1) f)) i) 0 :=
  (dat0 V c).arrAt_eq_of_cover 5 (G0 V c) (fun t _ => flushed0_eq V c t) cover0

/-! ## The second region: from its twenty blocks to the array -/

/-- The block index of every window at every grid point: the node windows (the two inputs and the output) sit at
    block row `t`, the weights and the bias at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of grid point `t`'s block is node `5000 t + p`. -/
def node1 (t : Fin cfg1.N) (p : Fin 5000) : Fin 100000 :=
  ⟨5000 * t.val + p.val, by have hN : grid1.N = 20 := N_1; have ht : t.val < grid1.N := t.isLt; have := p.isLt; omega⟩

/-- The aggregated-features block at point `t`: rows `5000 t … 5000 t + 4999` of its array. -/
theorem blk1_0 (c : Dev nD) (t : Fin cfg1.N) (p : Fin 5000) (k : Fin 128) :
    (iblk1 V c 0 t : Vec Ideal S5000x128 .f32) (ix2 p k) = (V c main_v30 : S100000x128.Idx → EReal) (ix2 (node1 t p) k) := by
  obtain ⟨e0, e1, -⟩ := idx_facts1 t
  unfold iblk1
  rw [View.read_apply]
  show V c main_v30 _ = V c main_v30 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- The node-features block at point `t`: the same rows of its array. -/
theorem blk1_1 (c : Dev nD) (t : Fin cfg1.N) (p : Fin 5000) (k : Fin 128) :
    (iblk1 V c 1 t : Vec Ideal S5000x128 .f32) (ix2 p k) = (V c main_v21 : S100000x128.Idx → EReal) (ix2 (node1 t p) k) := by
  obtain ⟨-, -, e0, e1, -⟩ := idx_facts1 t
  unfold iblk1
  rw [View.read_apply]
  show V c main_v21 _ = V c main_v21 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The first weight matrix's one block is the matrix. -/
theorem blk1_2 (c : Dev nD) (t : Fin cfg1.N) (k q : Fin 128) :
    (iblk1 V c 2 t : Vec Ideal S128x128 .f32) (ix2 k q) = (V c main_arg5 : S128x128.Idx → EReal) (ix2 k q) := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- The bias row's one block is the row. -/
theorem blk1_3 (c : Dev nD) (t : Fin cfg1.N) (q : Fin 128) :
    (iblk1 V c 3 t : Vec Ideal S1x128 .f32) (ix2 (0 : Fin 1) q) = (V c main_v22 : S1x128.Idx → EReal) (ix2 (0 : Fin 1) q) := by
  obtain ⟨-, -, -, -, -, -, e0, e1, -⟩ := idx_facts1 t
  unfold iblk1
  rw [View.read_apply]
  show V c main_v22 _ = V c main_v22 _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * q.val = q.val; rw [e1]; omega

/-- The second weight matrix's one block is the matrix. -/
theorem blk1_4 (c : Dev nD) (t : Fin cfg1.N) (k q : Fin 128) :
    (iblk1 V c 4 t : Vec Ideal S128x128 .f32) (ix2 k q) = (V c main_arg7 : S128x128.Idx → EReal) (ix2 k q) := by
  obtain ⟨-, -, -, -, -, -, -, -, e0, e1, -⟩ := idx_facts1 t
  unfold iblk1
  rw [View.read_apply]
  show V c main_arg7 _ = V c main_arg7 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The output block's index `(p, q)` at point `t` is the array's index `(5000 t + p, q)`. -/
theorem emb1_5 (t : Fin cfg1.N) (p : Fin 5000) (q : Fin 128) :
    ((cfg1.win 5).blk t).view.emb (ix2 p q) = (ix2 (node1 t p) q : S100000x128.Idx) := by
  obtain ⟨-, -, -, -, -, -, -, -, -, -, e0, e1⟩ := idx_facts1 t
  funext a
  apply Fin.ext
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- What the region's output array ends holding: the dense part, of the arrays as the region finds them. -/
abbrev G1 (c : Dev nD) : S100000x128.Idx → EReal :=
  Cert.Sage.lin (V c main_v30) (V c main_v21) (V c main_arg5) (V c main_arg7) (fun f => V c main_v22 (ix2 (0 : Fin 1) f))

/-- What grid point `t` writes back is block `t` of that function. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  rw [View.read_apply, emb1_5]
  show k1_pay1 (F := Ideal) _ _ _ _ _ (ix2 p q) = Cert.Sage.lin (V c main_v30) (V c main_v21) (V c main_arg5) (V c main_arg7) (fun f => V c main_v22 (ix2 (0 : Fin 1) f)) (ix2 (node1 t p) q)
  rw [Cert.Sage.lin_ix2, pay1_ix2]
  unfold Cert.Sage.linAt
  simp only [blk1_0 V c t, blk1_1 V c t, blk1_2 V c t, blk1_3 V c t, blk1_4 V c t]

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- Node `r` lies in the block of grid point `r / 5000`: the twenty blocks cover the array. -/
theorem cover1 (i : S100000x128.Idx) :
    ∃ t : Fin cfg1.N, (cfg1.win 5).flush t = true ∧ i ∈ ((cfg1.win 5).blk t).view.set := by
  have hN : grid1.N = 20 := N_1
  have hi0 : (i 0).val < 100000 := (i 0).isLt
  have hi1 : (i 1).val < 128 := (i 1).isLt
  let t : Fin cfg1.N := ⟨(i 0).val / 5000, by show (i 0).val / 5000 < grid1.N; omega⟩
  obtain ⟨-, -, -, -, -, -, -, -, -, -, e0, e1⟩ := idx_facts1 t
  have ht : t.val = (i 0).val / 5000 := rfl
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- The second region's output array: the dense part, over all nodes. -/
theorem final1 (c : Dev nD) : (dat1 (F := Ideal) V c).arrAt 5 cfg1.N =
    Cert.Sage.lin (V c main_v30) (V c main_v21) (V c main_arg5) (V c main_arg7) (fun f => V c main_v22 (ix2 (0 : Fin 1) f)) :=
  (dat1 V c).arrAt_eq_of_cover 5 (G1 V c) (fun t _ => flushed1_eq V c t) cover1

end Cert.KernelIdeal.Dense

end
-- ==== Proof.KHost.lean ====
/-
  The host operations of the kernel's program around its two regions, read as values. Before the first region:
  the edge array split into source and destination indices, the reciprocal degree, the first aggregation
  (fetch with a fill, relu, sum into the destination nodes, product with the reciprocal degree) and the bias
  as a row. Between the regions the same over the first region's output. With what the regions leave
  (the dense parts), the program's result is the two layers with the aggregation spelt by the fetch with a fill.
-/
import proofs.«420767_j66314295050609_1_alg».proof.Proof.KTake
import proofs.«420767_j66314295050609_1_alg».proof.Proof.Dense
import Idealize.ShloMosaic.Lib.ValueLayout

noncomputable section

namespace Cert.KernelIdeal.KHost

open Cert.KernelIdeal Cert.KernelIdeal.Gen Idealize.ShloMosaic Idealize.ShloMosaic.TcCoe Idealize.SL.Sem Idealize.ShloMosaic.StableHlo
open Cert.Sage Idealize.ShloMosaic.ValueIdx

variable {F : FTy → Type} [FloatOps F]

/-! ## Before the first region -/

/-- The four stretches of host operations before the first region, from contents `V`. -/
abbrev half1 (V : Valuation τ sig (Elt F)) : Valuation τ sig (Elt F) :=
  StableHlo.after hostOps0_3 (StableHlo.after hostOps0_2 (StableHlo.after hostOps0_1 (StableHlo.after hostOps0 V)))

set_option maxHeartbeats 1000000 in
/-- The first stretch splits off the source indices … -/
theorem first_src (V : Valuation τ sig (Elt F)) : StableHlo.after hostOps0 V (Proc.devRef .tc main_v1)
    = src (V (Proc.devRef .tc main_arg1)) := by
  simp only [hostOps0]
  after_results_simp
  rfl

set_option maxHeartbeats 1000000 in
/-- … and leaves the node features as they were. -/
theorem first_x (V : Valuation τ sig (Elt F)) : StableHlo.after hostOps0 V (Proc.devRef .tc main_arg0)
    = V (Proc.devRef .tc main_arg0) := by
  simp only [hostOps0]
  after_results_simp

set_option maxHeartbeats 1000000 in
/-- After the first two stretches the destination indices … -/
theorem second_dst (V : Valuation τ sig (Elt F)) :
    StableHlo.after hostOps0_2 (StableHlo.after hostOps0_1 (StableHlo.after hostOps0 V)) (Proc.devRef .tc main_v3)
    = dst (V (Proc.devRef .tc main_arg1)) := by
  simp only [hostOps0, hostOps0_1, hostOps0_2]
  after_results_simp
  rfl

set_option maxHeartbeats 1000000 in
/-- … and the reciprocal degree stand as the first stretch computed them. -/
theorem second_inv (V : Valuation τ sig (Elt F)) :
    StableHlo.after hostOps0_2 (StableHlo.after hostOps0_1 (StableHlo.after hostOps0 V)) (Proc.devRef .tc main_v11)
    = invDegree (V (Proc.devRef .tc main_arg1)) := by
  simp only [hostOps0, hostOps0_1, hostOps0_2]
  after_results_simp
  rfl

set_option maxHeartbeats 1000000 in
/-- The relu of the fetched rows (the third stretch). -/
theorem relu1 (V : Valuation τ sig (Elt F)) : StableHlo.after hostOps0_2 V (Proc.devRef .tc main_v14)
    = reluMsgs (V (Proc.devRef .tc main_v13)) := by
  simp only [hostOps0_2]
  after_results_simp
  rfl

set_option maxHeartbeats 1000000 in
/-- The sum into the destination nodes times the reciprocal degree (the fourth stretch). -/
theorem mean1 (V : Valuation τ sig (Elt F)) : StableHlo.after hostOps0_3 V (Proc.devRef .tc main_v20)
    = mulf (summedOf (V (Proc.devRef .tc main_v14)) (V (Proc.devRef .tc main_v3))) (alongFeatures (V (Proc.devRef .tc main_v11))) := by
  simp only [hostOps0_3]
  after_results_simp
  rfl

/-- The first region's aggregated input is the aggregation, by the fetch with a fill, of the node features. -/
theorem half1_mean (V : Valuation τ sig (Elt F)) : half1 V (Proc.devRef .tc main_v20)
    = aggTake (V (Proc.devRef .tc main_arg0)) (V (Proc.devRef .tc main_arg1)) := by
  rw [half1, mean1, relu1, KTake.fetch1, first_x, first_src, second_dst, second_inv]
  rfl

set_option maxHeartbeats 1000000 in
/-- The node features reach the first region as launched … -/
theorem half1_x (V : Valuation τ sig (Elt F)) : half1 V (Proc.devRef .tc main_arg0) = V (Proc.devRef .tc main_arg0) := by
  simp only [half1, hostOps0, hostOps0_1, hostOps0_2, hostOps0_3]
  after_results_simp

set_option maxHeartbeats 1000000 in
/-- … and so do the weights … -/
theorem half1_wl1 (V : Valuation τ sig (Elt F)) : half1 V (Proc.devRef .tc main_arg2) = V (Proc.devRef .tc main_arg2) := by
  simp only [half1, hostOps0, hostOps0_1, hostOps0_2, hostOps0_3]
  after_results_simp

set_option maxHeartbeats 1000000 in
/-- … of the first layer … -/
theorem half1_wr1 (V : Valuation τ sig (Elt F)) : half1 V (Proc.devRef .tc main_arg4) = V (Proc.devRef .tc main_arg4) := by
  simp only [half1, hostOps0, hostOps0_1, hostOps0_2, hostOps0_3]
  after_results_simp

set_option maxHeartbeats 1000000 in
/-- … and of the second … -/
theorem half1_wl2 (V : Valuation τ sig (Elt F)) : half1 V (Proc.devRef .tc main_arg5) = V (Proc.devRef .tc main_arg5) := by
  simp only [half1, hostOps0, hostOps0_1, hostOps0_2, hostOps0_3]
  after_results_simp

set_option maxHeartbeats 1000000 in
/-- … with its bias … -/
theorem half1_b2 (V : Valuation τ sig (Elt F)) : half1 V (Proc.devRef .tc main_arg6) = V (Proc.devRef .tc main_arg6) := by
  simp only [half1, hostOps0, hostOps0_1, hostOps0_2, hostOps0_3]
  after_results_simp

set_option maxHeartbeats 1000000 in
/-- … and its other weights. -/
theorem half1_wr2 (V : Valuation τ sig (Elt F)) : half1 V (Proc.devRef .tc main_arg7) = V (Proc.devRef .tc main_arg7) := by
  simp only [half1, hostOps0, hostOps0_1, hostOps0_2, hostOps0_3]
  after_results_simp

set_option maxHeartbeats 1000000 in
/-- The first layer's bias as a row. -/
theorem half1_bias (V : Valuation τ sig (Elt F)) : half1 V (Proc.devRef .tc main_v12) = shapeCast S1x128 (V (Proc.devRef .tc main_arg3)) shapeCasts_S128_S1x128 := by
  simp only [half1, hostOps0, hostOps0_1, hostOps0_2, hostOps0_3]
  after_results_simp
  rfl

set_option maxHeartbeats 1000000 in
/-- The source indices, … -/
theorem half1_src (V : Valuation τ sig (Elt F)) : half1 V (Proc.devRef .tc main_v1) = src (V (Proc.devRef .tc main_arg1)) := by
  simp only [half1, hostOps0, hostOps0_1, hostOps0_2, hostOps0_3]
  after_results_simp
  rfl

set_option maxHeartbeats 1000000 in
/-- … the destination indices … -/
theorem half1_dst (V : Valuation τ sig (Elt F)) : half1 V (Proc.devRef .tc main_v3) = dst (V (Proc.devRef .tc main_arg1)) := by
  simp only [half1, hostOps0, hostOps0_1, hostOps0_2, hostOps0_3]
  after_results_simp
  rfl

set_option maxHeartbeats 1000000 in
/-- … and the reciprocal degree, as the second layer will read them. -/
theorem half1_inv (V : Valuation τ sig (Elt F)) : half1 V (Proc.devRef .tc main_v11) = invDegree (V (Proc.devRef .tc main_arg1)) := by
  simp only [half1, hostOps0, hostOps0_1, hostOps0_2, hostOps0_3]
  after_results_simp
  rfl

/-! ## Between the regions -/

/-- The four stretches of host operations between the regions, from contents `V`. -/
abbrev half2 (V : Valuation τ sig (Elt F)) : Valuation τ sig (Elt F) :=
  StableHlo.after hostOps1_3 (StableHlo.after hostOps1_2 (StableHlo.after hostOps1_1 (StableHlo.after hostOps1 V)))

set_option maxHeartbeats 1000000 in
/-- The first stretch (the second bias as a row) leaves the first region's output … -/
theorem between_h (V : Valuation τ sig (Elt F)) : StableHlo.after hostOps1 V (Proc.devRef .tc main_v21)
    = V (Proc.devRef .tc main_v21) := by
  simp only [hostOps1]
  after_results_simp

set_option maxHeartbeats 1000000 in
/-- … and the source indices as they were. -/
theorem between_src (V : Valuation τ sig (Elt F)) : StableHlo.after hostOps1 V (Proc.devRef .tc main_v1)
    = V (Proc.devRef .tc main_v1) := by
  simp only [hostOps1]
  after_results_simp

set_option maxHeartbeats 1000000 in
/-- After three stretches the destination indices … -/
theorem third_dst (V : Valuation τ sig (Elt F)) :
    StableHlo.after hostOps1_2 (StableHlo.after hostOps1_1 (StableHlo.after hostOps1 V)) (Proc.devRef .tc main_v3)
    = V (Proc.devRef .tc main_v3) := by
  simp only [hostOps1, hostOps1_1, hostOps1_2]
  after_results_simp

set_option maxHeartbeats 1000000 in
/-- … and the reciprocal degree stand as they were. -/
theorem third_inv (V : Valuation τ sig (Elt F)) :
    StableHlo.after hostOps1_2 (StableHlo.after hostOps1_1 (StableHlo.after hostOps1 V)) (Proc.devRef .tc main_v11)
    = V (Proc.devRef .tc main_v11) := by
  simp only [hostOps1, hostOps1_1, hostOps1_2]
  after_results_simp

set_option maxHeartbeats 1000000 in
/-- The relu of the rows fetched from the first region's output. -/
theorem relu2 (V : Valuation τ sig (Elt F)) : StableHlo.after hostOps1_2 V (Proc.devRef .tc main_v24)
    = reluMsgs (V (Proc.devRef .tc main_v23)) := by
  simp only [hostOps1_2]
  after_results_simp
  rfl

set_option maxHeartbeats 1000000 in
/-- The sum into the destination nodes times the reciprocal degree. -/
theorem mean2 (V : Valuation τ sig (Elt F)) : StableHlo.after hostOps1_3 V (Proc.devRef .tc main_v30)
    = mulf (summedOf (V (Proc.devRef .tc main_v24)) (V (Proc.devRef .tc main_v3))) (alongFeatures (V (Proc.devRef .tc main_v11))) := by
  simp only [hostOps1_3]
  after_results_simp
  rfl

/-- The second region's aggregated input is the aggregation, by the fetch with a fill, of the first region's output,
    over the source and destination indices and the reciprocal degree computed before the first region. -/
theorem half2_mean (V : Valuation τ sig (Elt F)) : half2 V (Proc.devRef .tc main_v30)
    = aggTakeOf (V (Proc.devRef .tc main_v21)) (V (Proc.devRef .tc main_v1)) (V (Proc.devRef .tc main_v3)) (V (Proc.devRef .tc main_v11)) := by
  rw [half2, mean2, relu2, KTake.fetch2, between_h, between_src, third_dst, third_inv]
  rfl

set_option maxHeartbeats 1000000 in
/-- The first region's output reaches the second region as the first left it … -/
theorem half2_h (V : Valuation τ sig (Elt F)) : half2 V (Proc.devRef .tc main_v21) = V (Proc.devRef .tc main_v21) := by
  simp only [half2, hostOps1, hostOps1_1, hostOps1_2, hostOps1_3]
  after_results_simp

set_option maxHeartbeats 1000000 in
/-- … and the second layer's weights as they were. -/
theorem half2_wl2 (V : Valuation τ sig (Elt F)) : half2 V (Proc.devRef .tc main_arg5) = V (Proc.devRef .tc main_arg5) := by
  simp only [half2, hostOps1, hostOps1_1, hostOps1_2, hostOps1_3]
  after_results_simp

set_option maxHeartbeats 1000000 in
/-- Likewise its other weights. -/
theorem half2_wr2 (V : Valuation τ sig (Elt F)) : half2 V (Proc.devRef .tc main_arg7) = V (Proc.devRef .tc main_arg7) := by
  simp only [half2, hostOps1, hostOps1_1, hostOps1_2, hostOps1_3]
  after_results_simp

set_option maxHeartbeats 1000000 in
/-- The second layer's bias as a row. -/
theorem half2_bias (V : Valuation τ sig (Elt F)) : half2 V (Proc.devRef .tc main_v22) = shapeCast S1x128 (V (Proc.devRef .tc main_arg6)) shapeCasts_S128_S1x128 := by
  simp only [half2, hostOps1, hostOps1_1, hostOps1_2, hostOps1_3]
  after_results_simp
  rfl

/-! ## The program's result -/

section Result

variable (m : (ℓ : Loc nD τ sig) → Buf (Elt Ideal) ℓ) (ρ : Dev nD → PrngReg)

/-- The first region leaves the first layer's output: the relu of the dense part over the aggregated node features. -/
theorem hidden_eq (c : Dev nD) : W5 m ρ c (Proc.devRef .tc main_v21)
    = hidden (fun z => aggTake (F := Ideal) z (m ((c : Thread nD τ).loc main_arg1))) (m ((c : Thread nD τ).loc main_arg0))
        (m ((c : Thread nD τ).loc main_arg2)) (m ((c : Thread nD τ).loc main_arg4)) (fun f => m ((c : Thread nD τ).loc main_arg3) (ix1 f)) := by
  refine (W5_arr m ρ c 5).trans ?_
  rw [Dense.final0 (V4 m ρ) c]
  have e20 : V4 m ρ c main_v20 = aggTake (F := Ideal) (m ((c : Thread nD τ).loc main_arg0)) (m ((c : Thread nD τ).loc main_arg1)) :=
    half1_mean (W0 m ρ c)
  have e0 : V4 m ρ c main_arg0 = m ((c : Thread nD τ).loc main_arg0) := half1_x (W0 m ρ c)
  have e2 : V4 m ρ c main_arg2 = m ((c : Thread nD τ).loc main_arg2) := half1_wl1 (W0 m ρ c)
  have e4 : V4 m ρ c main_arg4 = m ((c : Thread nD τ).loc main_arg4) := half1_wr1 (W0 m ρ c)
  have e12 : V4 m ρ c main_v12 = shapeCast S1x128 (m ((c : Thread nD τ).loc main_arg3)) shapeCasts_S128_S1x128 := half1_bias (W0 m ρ c)
  rw [e20, e0, e2, e4, e12]
  simp only [shapeCast_a_1a_apply]
  rfl

/-- The program's result array is the two layers over its arguments, the aggregation spelt by the fetch with a fill. -/
theorem result (c : Dev nD) : W10 m ρ c (Proc.devRef .tc main_v31)
    = twoLayer (fun z => aggTake (F := Ideal) z (m ((c : Thread nD τ).loc main_arg1))) (m ((c : Thread nD τ).loc main_arg0))
        (m ((c : Thread nD τ).loc main_arg2)) (m ((c : Thread nD τ).loc main_arg4)) (m ((c : Thread nD τ).loc main_arg5))
        (m ((c : Thread nD τ).loc main_arg7)) (fun f => m ((c : Thread nD τ).loc main_arg3) (ix1 f))
        (fun f => m ((c : Thread nD τ).loc main_arg6) (ix1 f)) := by
  refine (W10_arr m ρ c 5).trans ?_
  rw [Dense.final1 (V9 m ρ) c]
  have e30 : V9 m ρ c main_v30 = aggTakeOf (F := Ideal) (W5 m ρ c (Proc.devRef .tc main_v21)) (W5 m ρ c (Proc.devRef .tc main_v1))
      (W5 m ρ c (Proc.devRef .tc main_v3)) (W5 m ρ c (Proc.devRef .tc main_v11)) := half2_mean (W5 m ρ c)
  have e21 : V9 m ρ c main_v21 = W5 m ρ c (Proc.devRef .tc main_v21) := half2_h (W5 m ρ c)
  have e5 : V9 m ρ c main_arg5 = W5 m ρ c (Proc.devRef .tc main_arg5) := half2_wl2 (W5 m ρ c)
  have e7 : V9 m ρ c main_arg7 = W5 m ρ c (Proc.devRef .tc main_arg7) := half2_wr2 (W5 m ρ c)
  have e22 : V9 m ρ c main_v22 = shapeCast S1x128 (W5 m ρ c (Proc.devRef .tc main_arg6)) shapeCasts_S128_S1x128 := half2_bias (W5 m ρ c)
  rw [e30, e21, e5, e7, e22]
  have k1 : W5 m ρ c (Proc.devRef .tc main_v1) = src (m ((c : Thread nD τ).loc main_arg1)) :=
    (W5_of_ne m ρ c main_v1 (by decide)).trans (half1_src (W0 m ρ c))
  have k3 : W5 m ρ c (Proc.devRef .tc main_v3) = dst (m ((c : Thread nD τ).loc main_arg1)) :=
    (W5_of_ne m ρ c main_v3 (by decide)).trans (half1_dst (W0 m ρ c))
  have k11 : W5 m ρ c (Proc.devRef .tc main_v11) = invDegree (F := Ideal) (m ((c : Thread nD τ).loc main_arg1)) :=
    (W5_of_ne m ρ c main_v11 (by decide)).trans (half1_inv (W0 m ρ c))
  have k5 : W5 m ρ c (Proc.devRef .tc main_arg5) = m ((c : Thread nD τ).loc main_arg5) :=
    (W5_of_ne m ρ c main_arg5 (by decide)).trans (half1_wl2 (W0 m ρ c))
  have k6 : W5 m ρ c (Proc.devRef .tc main_arg6) = m ((c : Thread nD τ).loc main_arg6) :=
    (W5_of_ne m ρ c main_arg6 (by decide)).trans (half1_b2 (W0 m ρ c))
  have k7 : W5 m ρ c (Proc.devRef .tc main_arg7) = m ((c : Thread nD τ).loc main_arg7) :=
    (W5_of_ne m ρ c main_arg7 (by decide)).trans (half1_wr2 (W0 m ρ c))
  rw [k1, k3, k11, k5, k6, k7, hidden_eq m ρ c]
  simp only [shapeCast_a_1a_apply]
  rfl

end Result

end Cert.KernelIdeal.KHost

end
-- ==== Proof.RefVal.lean ====
/-
  The reference's result, stage by stage, is the two layers with the aggregation spelt by plain indexing.
-/
import proofs.«420767_j66314295050609_1_alg».proof.Proof.Gen.ReferenceIdeal.Read
import proofs.«420767_j66314295050609_1_alg».proof.Proof.Spec

noncomputable section

namespace Cert.ReferenceIdeal.RefVal

open Cert.ReferenceIdeal Cert.ReferenceIdeal.Gen Idealize.ShloMosaic Idealize.ShloMosaic.ValueIdx

/-! ## The aggregation stages

The stages from the slices of the edge array up to the quotient are, operation for operation, the aggregation
by plain indexing: the same gather, relu, two scatters, maximum with one, two broadcasts and quotient, applied
in the same order to the same operands. -/

/-- The first layer's aggregation stage is the aggregation of the node features. -/
theorem agg_first (x0 : FVec Ideal S100000x128 .f32) (x1 : IVec S2x1600000 32) :
    Read.val_main_v23 (F := Ideal) x0 x1 = Cert.Sage.aggIndex (F := Ideal) x0 x1 := rfl

/-- The second layer's aggregation stage is the aggregation of the first layer's output stage. -/
theorem agg_second (x0 : FVec Ideal S100000x128 .f32) (x1 : IVec S2x1600000 32) (x2 : FVec Ideal S128x128 .f32)
    (x3 : FVec Ideal S128 .f32) (x4 : FVec Ideal S128x128 .f32) :
    Read.val_main_v50 (F := Ideal) x0 x1 x2 x3 x4
      = Cert.Sage.aggIndex (F := Ideal) (Read.val_main_v30 (F := Ideal) x0 x1 x2 x3 x4) x1 := rfl

/-! ## The stages' index functions, in coordinates

At node `n` and output feature `f`, a product stage reads its left operand along row `n` and its right operand
down column `f`; the bias is read at `f` through a row of length one. -/

theorem lidx_v24 (n : Fin 100000) (f k : Fin 128) : Read.lidx_main_v24 (ix2 n f) k = ix2 n k :=
  funext fun a => by match a with | ⟨0, _⟩ => rfl | ⟨1, _⟩ => rfl
theorem ridx_v24 (n : Fin 100000) (f k : Fin 128) : Read.ridx_main_v24 (ix2 n f) k = ix2 k f :=
  funext fun a => by match a with | ⟨0, _⟩ => rfl | ⟨1, _⟩ => rfl
theorem lidx_v28 (n : Fin 100000) (f k : Fin 128) : Read.lidx_main_v28 (ix2 n f) k = ix2 n k :=
  funext fun a => by match a with | ⟨0, _⟩ => rfl | ⟨1, _⟩ => rfl
theorem ridx_v28 (n : Fin 100000) (f k : Fin 128) : Read.ridx_main_v28 (ix2 n f) k = ix2 k f :=
  funext fun a => by match a with | ⟨0, _⟩ => rfl | ⟨1, _⟩ => rfl
theorem lidx_v51 (n : Fin 100000) (f k : Fin 128) : Read.lidx_main_v51 (ix2 n f) k = ix2 n k :=
  funext fun a => by match a with | ⟨0, _⟩ => rfl | ⟨1, _⟩ => rfl
theorem ridx_v51 (n : Fin 100000) (f k : Fin 128) : Read.ridx_main_v51 (ix2 n f) k = ix2 k f :=
  funext fun a => by match a with | ⟨0, _⟩ => rfl | ⟨1, _⟩ => rfl
theorem lidx_v55 (n : Fin 100000) (f k : Fin 128) : Read.lidx_main_v55 (ix2 n f) k = ix2 n k :=
  funext fun a => by match a with | ⟨0, _⟩ => rfl | ⟨1, _⟩ => rfl
theorem ridx_v55 (n : Fin 100000) (f k : Fin 128) : Read.ridx_main_v55 (ix2 n f) k = ix2 k f :=
  funext fun a => by match a with | ⟨0, _⟩ => rfl | ⟨1, _⟩ => rfl
theorem idx_v26_v25 (n : Fin 100000) (f : Fin 128) : Read.idx_main_v25 (Read.idx_main_v26 (ix2 n f)) = ix1 f :=
  funext fun a => by match a with | ⟨0, _⟩ => rfl
theorem idx_v53_v52 (n : Fin 100000) (f : Fin 128) : Read.idx_main_v52 (Read.idx_main_v53 (ix2 n f)) = ix1 f :=
  funext fun a => by match a with | ⟨0, _⟩ => rfl

/-! ## The stages read at a node and a feature -/

/-- The relu's constant array between the layers is zero everywhere. -/
theorem zero_v30 (i : S100000x128.Idx) : Read.val_main_call1_v0 (F := Ideal) i = 0 := by
  rw [Read.val_main_call1_v0_apply, Read.val_main_call1_cst_apply, Ideal.ofBits_def, Ideal.ofBits_zero_f32]

/-- The first layer's bias stage reads the bias at the feature. -/
theorem bias_first (x3 : FVec Ideal S128 .f32) (n : Fin 100000) (f : Fin 128) :
    Read.val_main_v26 (F := Ideal) x3 (ix2 n f) = x3 (ix1 f) := by
  rw [Read.val_main_v26_apply, Read.val_main_v25_apply, idx_v26_v25]

/-- The second layer's bias stage reads the bias at the feature. -/
theorem bias_second (x6 : FVec Ideal S128 .f32) (n : Fin 100000) (f : Fin 128) :
    Read.val_main_v53 (F := Ideal) x6 (ix2 n f) = x6 (ix1 f) := by
  rw [Read.val_main_v53_apply, Read.val_main_v52_apply, idx_v53_v52]

/-- The first layer's product of the aggregation with the left weights. -/
theorem dot_v24 (x0 : FVec Ideal S100000x128 .f32) (x1 : IVec S2x1600000 32) (x2 : FVec Ideal S128x128 .f32)
    (n : Fin 100000) (f : Fin 128) :
    Read.val_main_v24 (F := Ideal) x0 x1 x2 (ix2 n f)
      = ∑ k : Fin 128, Cert.Sage.aggIndex (F := Ideal) x0 x1 (ix2 n k) * x2 (ix2 k f) := by
  rw [Read.val_main_v24_apply, agg_first]
  refine Finset.sum_congr rfl fun k _ => ?_
  rw [lidx_v24, ridx_v24]

/-- The first layer's product of the node features with the right weights. -/
theorem dot_v28 (x0 : FVec Ideal S100000x128 .f32) (x4 : FVec Ideal S128x128 .f32) (n : Fin 100000) (f : Fin 128) :
    Read.val_main_v28 (F := Ideal) x0 x4 (ix2 n f) = ∑ k : Fin 128, x0 (ix2 n k) * x4 (ix2 k f) := by
  rw [Read.val_main_v28_apply]
  refine Finset.sum_congr rfl fun k _ => ?_
  rw [lidx_v28, ridx_v28]

/-- The first layer's output stage is the first layer. -/
theorem hidden_eq (x0 : FVec Ideal S100000x128 .f32) (x1 : IVec S2x1600000 32) (x2 : FVec Ideal S128x128 .f32)
    (x3 : FVec Ideal S128 .f32) (x4 : FVec Ideal S128x128 .f32) :
    Read.val_main_v30 (F := Ideal) x0 x1 x2 x3 x4
      = Cert.Sage.hidden (fun z => Cert.Sage.aggIndex (F := Ideal) z x1) x0 x2 x4 (fun f => x3 (ix1 f)) := by
  funext i
  obtain ⟨n, f, rfl⟩ : ∃ (n : Fin 100000) (f : Fin 128), i = ix2 n f := ⟨i 0, i 1, eq_ix2 i⟩
  rw [Read.val_main_v30_apply, Read.val_main_v29_apply, Read.val_main_v27_apply, dot_v24, dot_v28, bias_first, zero_v30]
  simp only [Ideal.maximumf_def, Ideal.addf_def]
  rfl

/-- The second layer's product of the aggregation with the left weights. -/
theorem dot_v51 (x0 : FVec Ideal S100000x128 .f32) (x1 : IVec S2x1600000 32) (x2 : FVec Ideal S128x128 .f32)
    (x3 : FVec Ideal S128 .f32) (x4 x5 : FVec Ideal S128x128 .f32) (n : Fin 100000) (f : Fin 128) :
    Read.val_main_v51 (F := Ideal) x0 x1 x2 x3 x4 x5 (ix2 n f)
      = ∑ k : Fin 128, Cert.Sage.aggIndex (F := Ideal) (Read.val_main_v30 (F := Ideal) x0 x1 x2 x3 x4) x1 (ix2 n k) * x5 (ix2 k f) := by
  rw [Read.val_main_v51_apply, agg_second]
  refine Finset.sum_congr rfl fun k _ => ?_
  rw [lidx_v51, ridx_v51]

/-- The second layer's product of the first layer's output with the right weights. -/
theorem dot_v55 (x0 : FVec Ideal S100000x128 .f32) (x1 : IVec S2x1600000 32) (x2 : FVec Ideal S128x128 .f32)
    (x3 : FVec Ideal S128 .f32) (x4 x7 : FVec Ideal S128x128 .f32) (n : Fin 100000) (f : Fin 128) :
    Read.val_main_v55 (F := Ideal) x0 x1 x2 x3 x4 x7 (ix2 n f)
      = ∑ k : Fin 128, Read.val_main_v30 (F := Ideal) x0 x1 x2 x3 x4 (ix2 n k) * x7 (ix2 k f) := by
  rw [Read.val_main_v55_apply]
  refine Finset.sum_congr rfl fun k _ => ?_
  rw [lidx_v55, ridx_v55]

/-- The reference's result array is the two layers over its arguments. -/
theorem result_eq (x0 : FVec Ideal S100000x128 .f32) (x1 : IVec S2x1600000 32) (x2 : FVec Ideal S128x128 .f32) (x3 : FVec Ideal S128 .f32)
    (x4 x5 : FVec Ideal S128x128 .f32) (x6 : FVec Ideal S128 .f32) (x7 : FVec Ideal S128x128 .f32) :
    Cert.ReferenceIdeal.Read.val_main_v56 (F := Ideal) x0 x1 x2 x3 x4 x5 x6 x7
      = Cert.Sage.twoLayer (fun z => Cert.Sage.aggIndex (F := Ideal) z x1) x0 x2 x4 x5 x7 (fun f => x3 (ix1 f)) (fun f => x6 (ix1 f)) := by
  funext i
  obtain ⟨n, f, rfl⟩ : ∃ (n : Fin 100000) (f : Fin 128), i = ix2 n f := ⟨i 0, i 1, eq_ix2 i⟩
  rw [Read.val_main_v56_apply, Read.val_main_v54_apply, dot_v51, dot_v55, bias_second, hidden_eq]
  simp only [Ideal.addf_def]
  rfl

end Cert.ReferenceIdeal.RefVal

end
-- ==== Proof.lean ====
/-
  The certificate of a two-layer GraphSAGE forward pass (100000 nodes, 128 features, 1600000 edges): per layer the mean,
  over each node's incoming edges, of the relu of the source rows, followed by `mean · Wl + bl + z · Wr`; a relu between
  the layers. The kernel's program does the dense part in two tiled regions (twenty blocks of 5000 node rows each) and
  the aggregation on the host; the reference does everything on the host.
  The two programs differ in two places. The reference divides the summed messages by the degree, the kernel's program
  multiplies them by its reciprocal: the degree is at least one, so the two are one extended real. The reference fetches
  the source rows by plain indexing, the kernel's program fetches them with a fill where the (wrapped) index is no row of
  the table: they agree where every source index addresses a row, −100000 ≤ index < 100000 (a negative one counting from
  the end) — the precondition's last conjunct; outside it the reference itself indexes out of range.
  The frames of the two kernel programs are the generated ones; the reference's frame is its generated run with the
  result dropped; nothing was rewritten by the idealization, so `preserves` is trivial. For `algebraic`: the kernel
  program's run with its result named (Proof/KRun.lean), that result as the two layers over the aggregation by the fetch with a
  fill (Proof/Dense.lean: what the regions leave; Proof/KTake.lean, Proof/KHost.lean: the host operations), the reference's
  result as the two layers over the aggregation by plain indexing (Proof/RefVal.lean), and the two aggregations equal under
  the precondition (Proof/Agg.lean, Proof/PreRange.lean).
-/
import proofs.«420767_j66314295050609_1_alg».proof.Defs
import proofs.«420767_j66314295050609_1_alg».proof.Proof.Gen.Kernel
import proofs.«420767_j66314295050609_1_alg».proof.Proof.Gen.Kernel.Skeleton
import proofs.«420767_j66314295050609_1_alg».proof.Proof.Gen.Kernel.Launch
import proofs.«420767_j66314295050609_1_alg».proof.Proof.Gen.Kernel.Points
import proofs.«420767_j66314295050609_1_alg».proof.Proof.Gen.Kernel.Frame
import proofs.«420767_j66314295050609_1_alg».proof.Proof.Gen.KernelIdeal
import proofs.«420767_j66314295050609_1_alg».proof.Proof.Gen.KernelIdeal.Skeleton
import proofs.«420767_j66314295050609_1_alg».proof.Proof.Gen.KernelIdeal.Launch
import proofs.«420767_j66314295050609_1_alg».proof.Proof.Gen.KernelIdeal.Points
import proofs.«420767_j66314295050609_1_alg».proof.Proof.Gen.KernelIdeal.Frame
import proofs.«420767_j66314295050609_1_alg».proof.Proof.Gen.ReferenceIdeal
import proofs.«420767_j66314295050609_1_alg».proof.Proof.Gen.ReferenceIdeal.Run
import proofs.«420767_j66314295050609_1_alg».proof.Proof.Gen.ReferenceIdeal.Read
import proofs.«420767_j66314295050609_1_alg».proof.Proof.Gen.Pre_finite_inputs
import proofs.«420767_j66314295050609_1_alg».proof.Proof.Spec
import proofs.«420767_j66314295050609_1_alg».proof.Proof.Agg
import proofs.«420767_j66314295050609_1_alg».proof.Proof.PreRange
import proofs.«420767_j66314295050609_1_alg».proof.Proof.KRun
import proofs.«420767_j66314295050609_1_alg».proof.Proof.KHost
import proofs.«420767_j66314295050609_1_alg».proof.Proof.RefVal
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments as launched: the generated frame. -/
theorem frame_p : Cert.frame_Kernel := fun m ρ _ => Cert.Kernel.Gen.frame m ρ

/-- The same for its idealization. -/
theorem frame_pi : Cert.frame_KernelIdeal := fun m ρ _ => Cert.KernelIdeal.Gen.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the two layers over their (agreeing) arguments: the kernel program's with the
    aggregation by the fetch with a fill, the reference's with the aggregation by plain indexing, which are one array where
    every source index addresses a row. -/
theorem algebraic : Cert.algebraic_KernelIdeal_ReferenceIdeal := by
  intro m ρ m' ρ' hpre hagree
  refine ⟨fun c => Cert.Sage.twoLayer
      (fun z => Cert.Sage.aggIndex (F := Ideal) z (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (fun f => m ((c.tc : Thread Cert.KernelIdeal.nD Cert.KernelIdeal.τ).loc Cert.KernelIdeal.main_arg3) (ix1 f))
      (fun f => m ((c.tc : Thread Cert.KernelIdeal.nD Cert.KernelIdeal.τ).loc Cert.KernelIdeal.main_arg6) (ix1 f)), ?_, ?_⟩
  · refine (θ_run Cert.KernelIdeal.defs _ _).mono (fun r h c => ⟨(h c).1.trans ?_, (h c).2⟩)
      (Cert.KernelIdeal.KRun.run (F := Ideal) m ρ)
    refine (Cert.KernelIdeal.KHost.result m ρ c).trans ?_
    exact Cert.Sage.twoLayer_congr
      (fun z => Cert.Sage.aggTake_eq_aggIndex z _ (Cert.PreRange.srcInTable_of_pre _ _ _ _ _ _ _ _ (hpre c))) _ _ _ _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v56_eq, Cert.ReferenceIdeal.RefVal.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
